-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S16x2048x256 : Shape := ⟨3, ![16, 2048, 256]⟩
abbrev S16x2048x2048 : Shape := ⟨3, ![16, 2048, 2048]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel
  bcast_S_S16x2048x256 : S_.BroadcastsInDim S16x2048x256 (![] : Fin 0 → Fin S16x2048x256.rank)
  reducesTo_S16x2048x256_S_d0_1_2 : S16x2048x256.ReducesTo [0, 1, 2] S_
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S16x256x256 .f32) (main_arg1 : FVec F S16x2048x256 .f32) (main_arg2 : FVec F S16x2048x2048 .f32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  main_v13
-- ==== Kernel.lean ====
abbrev S16x256x256 : Shape := ⟨3, ![16, 256, 256]⟩
abbrev S16x2048x256 : Shape := ⟨3, ![16, 2048, 256]⟩
abbrev S16x2048x2048 : Shape := ⟨3, ![16, 2048, 2048]⟩
abbrev S1x2048x256 : Shape := ⟨3, ![1, 2048, 256]⟩
abbrev S1x256x256 : Shape := ⟨3, ![1, 256, 256]⟩
abbrev S2048x256 : Shape := ⟨2, ![2048, 256]⟩
abbrev S256x256 : Shape := ⟨2, ![256, 256]⟩

abbrev nBuf : Space → Nat
  | .hbm => 4
  | .vmem => 6
  | .smem => 0
  | _ => 0

abbrev bufTy : (tb : Table) → Fin (tcTables nBuf tb) → BufTy
  | .hbm, ⟨0, _⟩ => ⟨S16x256x256, .f32⟩
  | .hbm, ⟨1, _⟩ => ⟨S16x2048x256, .f32⟩
  | .hbm, ⟨2, _⟩ => ⟨S16x2048x2048, .f32⟩
  | .hbm, ⟨3, _⟩ => ⟨S16x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x256, .f32⟩
  | .local _ .vmem, ⟨3, _⟩ => ⟨S1x256x256, .f32⟩
  | .local _ .vmem, ⟨4, _⟩ => ⟨S1x2048x256, .f32⟩
  | .local _ .vmem, ⟨5, _⟩ => ⟨S1x2048x256, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S2048x256_S1x2048x256 : S2048x256.ShapeCasts S1x2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .f32 = 32 ∨ (Rect.block (s := S16x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x2048x256.size a
  hwx0_2 : ∀ i : grid0.Coords, EltTy.bits .f32 = 32 ∨ (Rect.block (s := S16x2048x256) S1x2048x256.size (cc0_transform_2 i) (hinb0_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg1) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x256 : Shape := ⟨3, ![16, 256, 256]⟩
abbrev S16x2048x256 : Shape := ⟨3, ![16, 2048, 256]⟩
abbrev S16x2048x2048 : Shape := ⟨3, ![16, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S16x2048x256, .f32⟩
  | .hbm, ⟨2, _⟩ => ⟨S16x2048x2048, .f32⟩
  | .hbm, ⟨3, _⟩ => ⟨S16x2048x256, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S16x2048x256_S16x256x256_S16x2048x256_2_1_1_2_0_0_wf : DotDims.WF S16x2048x256 S16x256x256 S16x2048x256 [2] [1] [1] [2] [0] [0]

variable [Facts₀]

def dot_S16x2048x256_S16x256x256_S16x2048x256_2_1_1_2_0_0 : DotDims S16x2048x256 S16x256x256 S16x2048x256 where
  lhsContracting := [2]
  rhsContracting := [1]
  lhsNonContracting := [1]
  rhsNonContracting := [2]
  lhsBatch := [0]
  rhsBatch := [0]
  wf := dot_S16x2048x256_S16x256x256_S16x2048x256_2_1_1_2_0_0_wf

class Facts : Prop extends Facts₀ where

variable [Facts]
-- ==== Proof.Unpool.lean ====
/-
  THE UN-POOLING PRODUCT AS ONE FUNCTION OF THE ARGUMENT ARRAYS (it mentions no program).

  For every batch b the result is the matrix product of the assignment matrix S[b] (2048 rows, one per original node;
  256 columns, one per pooled node) with the pooled features x[b] (256 rows, one per pooled node; 256 channels): at
  (b, n, c) it is the sum over the 256 pooled nodes p of S[b, n, p] · x[b, p, c], taken on the extended reals. The
  third argument of the two programs (the adjacency) does not enter.

  Both programs compute exactly this sum, term by term and over the same index set, so no law of the extended reals
  beyond re-indexing a finite sum is needed, and the finiteness of the inputs is never used.
-/
import Idealize.ShloMosaic.PureOps.Ideal
import Idealize.ShloMosaic.Lib.ValueIdx

noncomputable section

open scoped BigOperators

namespace Cert.Unpool

open Idealize.ShloMosaic Idealize.ShloMosaic.ValueIdx

/-- The assignment matrices, one per batch: [16, 2048, 256]. -/
abbrev SAssign : Shape := ⟨3, ![16, 2048, 256]⟩
/-- The pooled features, one matrix per batch: [16, 256, 256]. -/
abbrev SPooled : Shape := ⟨3, ![16, 256, 256]⟩

/-- out[b, n, c] = Σ_p S[b, n, p] · x[b, p, c]. -/
def unpool (S : SAssign.Idx → EReal) (x : SPooled.Idx → EReal) : SAssign.Idx → EReal :=
  fun i => ∑ p : Fin 256, S (ix3 (i 0) (i 1) p) * x (ix3 (i 0) p (i 2))

/-- The same at an index given by its three coordinates. -/
theorem unpool_apply (S : SAssign.Idx → EReal) (x : SPooled.Idx → EReal) (b : Fin 16) (n : Fin 2048) (c : Fin 256) :
    unpool S x (ix3 b n c) = ∑ p : Fin 256, S (ix3 b n p) * x (ix3 b p c) := rfl

end Cert.Unpool

end
-- ==== Proof.RefIsUnpool.lean ====
/-
  THE REFERENCE'S RESULT IS THE UN-POOLING PRODUCT.

  The reference is one batched product: it pairs axis 0 of the assignment matrices with axis 0 of the pooled features
  (the batch), contracts the assignment's axis 2 with the features' axis 1 (the 256 pooled nodes) and keeps the
  assignment's axis 1 (the original node) and the features' axis 2 (the channel). Read at (b, n, c) that is the sum
  over p of S[b, n, p] · x[b, p, c]: the left operand is read at (b, n, p), the right at (b, p, c), which are the
  index triples the specification sums over.
-/
import proofs.«132072_j3504693314190_1_alg».proof.Proof.Gen.ReferenceIdeal.Read
import proofs.«132072_j3504693314190_1_alg».proof.Proof.Unpool

noncomputable section

open scoped BigOperators

namespace Cert.ReferenceIdeal.RefValue

open Cert.ReferenceIdeal Cert.ReferenceIdeal.Gen Idealize.ShloMosaic Idealize.ShloMosaic.ValueIdx

/-- The left operand's index at result index i and pooled node k is (i 0, i 1, k). -/
theorem left_index (i : S16x2048x256.Idx) (k : Fin 256) : Read.lidx_main_v0 i k = ix3 (i 0) (i 1) k :=
  funext fun a => Fin.ext (by match a with | ⟨0, _⟩ => rfl | ⟨1, _⟩ => rfl | ⟨2, _⟩ => rfl)

/-- The right operand's index at result index i and pooled node k is (i 0, k, i 2). -/
theorem right_index (i : S16x2048x256.Idx) (k : Fin 256) : Read.ridx_main_v0 i k = ix3 (i 0) k (i 2) :=
  funext fun a => Fin.ext (by match a with | ⟨0, _⟩ => rfl | ⟨1, _⟩ => rfl | ⟨2, _⟩ => rfl)

/-- The batched product of the reference, as a function of the pooled features x and the assignment matrices S, is the
    un-pooling product. -/
theorem stage_eq_unpool (x : (⟨S16x256x256, .f32⟩ : BufTy).Contents (Elt Ideal)) (S : (⟨S16x2048x256, .f32⟩ : BufTy).Contents (Elt Ideal)) :
    Read.val_main_v0 (F := Ideal) x S = Cert.Unpool.unpool S x := by
  funext i
  rw [Read.val_main_v0_apply]
  unfold Cert.Unpool.unpool
  refine Finset.sum_congr rfl fun k _ => ?_
  exact congrArg₂ (· * ·) (congrArg S (left_index i k)) (congrArg x (right_index i k))

end Cert.ReferenceIdeal.RefValue

end
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.BodyIsProduct.lean ====
/-
  WHAT THE KERNEL'S BODY STORES, READ AT AN INDEX.

  At one grid point the body loads the point's block of the assignment matrices (1 × 2048 × 256) and of the pooled
  features (1 × 256 × 256), drops the leading unit axis of each, changes their float format (the identity on the
  extended reals), multiplies the 2048 × 256 matrix by the 256 × 256 matrix into a zero accumulator, and stores the
  product with a leading unit axis added back. So the stored block at (u, n, c) is the sum over the 256 pooled nodes p
  of the first block at (0, n, p) times the second at (0, p, c).
-/
import proofs.«132072_j3504693314190_1_alg».proof.Proof.Gen.KernelIdeal.Skeleton
import proofs.«132072_j3504693314190_1_alg».proof.Proof.LibRowsByCols
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's product contracts the left operand's columns with the right operand's rows and has no batch axis. -/
theorem plain : Cert.Lib.RowsByCols.Plain dot_S2048x256_S256x256_S2048x256_1_0_0_1_n_n :=
  ⟨rfl, rfl, rfl, rfl, rfl, rfl⟩

/-- The stored block at (u, n, c) is Σ_p (first block)(0, n, p) · (second block)(0, p, c). -/
theorem stored_apply (s : Vec Ideal S1x2048x256 .f32) (x : Vec Ideal S1x256x256 .f32) (u : Fin 1) (n : Fin 2048) (c : Fin 256) :
    k0_pay1 (F := Ideal) s x (ix3 u n c) = ∑ p : Fin 256, s (ix3 (0 : Fin 1) n p) * x (ix3 (0 : Fin 1) p c) := by
  unfold k0_pay1
  refine (shapeCast_ab_1ab_apply _ _ u n c).trans ?_
  refine (Cert.Lib.RowsByCols.matmul_zero_apply plain none _ _ (ix2 n c)).trans ?_
  refine Finset.sum_congr rfl fun p _ => ?_
  exact congrArg₂ (· * ·) (shapeCast_1ab_ab_apply s _ n p) (shapeCast_1ab_ab_apply x _ p c)

end Cert.KernelIdeal.Body

end
-- ==== Proof.ArrayIsUnpool.lean ====
/-
  THE KERNEL'S RESULT ARRAY IS THE UN-POOLING PRODUCT.

  The grid has 16 points, one per batch. At point t every window's block index is (t, 0, 0): the body sees rows
  [t, t + 1) of the batch axis of the assignment matrices, of the pooled features and of the result, each with its other
  two axes whole. So an element (0, n, p) of the first input block is the assignment matrices' entry (t, n, p), an
  element (0, p, c) of the second is the pooled features' entry (t, p, c), and the element (u, n, c) the body stores goes
  to the result's entry (t, n, c). The stored value there is Σ_p S[t, n, p] · x[t, p, c], which is the product's value at
  (t, n, c). Entry (b, n, c) of the result lies in the block of point b, so the 16 blocks cover the array and the array
  ends holding the product everywhere.
-/
import proofs.«132072_j3504693314190_1_alg».proof.Proof.Gen.KernelIdeal.Value
import proofs.«132072_j3504693314190_1_alg».proof.Proof.BodyIsProduct
import proofs.«132072_j3504693314190_1_alg».proof.Proof.Unpool

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses all start at the origin of their buffer. -/
theorem origin : (![0, 0, 0] : Fin 3 → Nat) = fun _ => 0 := funext fun a => by fin_cases a <;> rfl

/-- At point t every window's block index is (t, 0, 0) (decided over the 16 points). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The value the body stores from blocks that are batch b of two arrays is the product of those arrays, read at any
    index of batch b with the stored element's row and column. -/
theorem stored_eq_unpool (Sarr : Cert.Unpool.SAssign.Idx → EReal) (xarr : Cert.Unpool.SPooled.Idx → EReal)
    (s : Vec Ideal S1x2048x256 .f32) (x : Vec Ideal S1x256x256 .f32) (b : Fin 16)
    (hs : ∀ (n : Fin 2048) (p : Fin 256), s (ix3 (0 : Fin 1) n p) = Sarr (ix3 b n p))
    (hx : ∀ (p : Fin 256) (c : Fin 256), x (ix3 (0 : Fin 1) p c) = xarr (ix3 b p c))
    (y : S1x2048x256.Idx) (i : Cert.Unpool.SAssign.Idx)
    (h0 : (i 0).val = b.val) (h1 : (i 1).val = (y 1).val) (h2 : (i 2).val = (y 2).val) :
    k0_pay1 (F := Ideal) s x y = Cert.Unpool.unpool Sarr xarr i := by
  obtain ⟨u, n, c, rfl⟩ : ∃ (u : Fin 1) (n : Fin 2048) (c : Fin 256), y = ix3 u n c := ⟨y 0, y 1, y 2, eq_ix3 y⟩
  have hi : i = ix3 b n c := funext fun a => Fin.ext (by
    match a with
    | ⟨0, _⟩ => exact h0
    | ⟨1, _⟩ => exact h1
    | ⟨2, _⟩ => exact h2)
  rw [hi, Cert.KernelIdeal.Body.stored_apply, Cert.Unpool.unpool_apply]
  exact Finset.sum_congr rfl fun p _ => congrArg₂ (· * ·) (hs n p) (hx p c)

/-- The first input block at point t is batch t of the assignment matrices. -/
theorem assign_block (c : Dev nD) (t : Fin cfg0.N) (n : Fin 2048) (p : Fin 256) :
    iblk m c 0 t (ix3 (0 : Fin 1) n p) = V m c main_arg1 (ix3 (⟨t.val, t.isLt⟩ : Fin 16) n p) := by
  obtain ⟨e0, e1, e2, -⟩ := block_index t
  show V m c main_arg1 (((cfg0.win 0).blk t).view.emb (ix3 (0 : Fin 1) n p)) = V m c main_arg1 (ix3 (⟨t.val, t.isLt⟩ : Fin 16) n p)
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 256 + 1 * p.val = p.val; omega

/-- The second input block at point t is batch t of the pooled features. -/
theorem pooled_block (c : Dev nD) (t : Fin cfg0.N) (p : Fin 256) (ch : Fin 256) :
    iblk m c 1 t (ix3 (0 : Fin 1) p ch) = V m c main_arg0 (ix3 (⟨t.val, t.isLt⟩ : Fin 16) p ch) := by
  obtain ⟨-, -, -, e0, e1, e2, -⟩ := block_index t
  show V m c main_arg0 (((cfg0.win 1).blk t).view.emb (ix3 (0 : Fin 1) p ch)) = V m c main_arg0 (ix3 (⟨t.val, t.isLt⟩ : Fin 16) p ch)
  refine congrArg _ (funext fun a => Fin.ext ?_)
  match a with
  | ⟨0, _⟩ => show win0_1.index t (0 : Fin 3) * 1 + 1 * 0 = t.val; omega
  | ⟨1, _⟩ => show win0_1.index t (1 : Fin 3) * 256 + 1 * p.val = p.val; omega
  | ⟨2, _⟩ => show win0_1.index t (2 : Fin 3) * 256 + 1 * ch.val = ch.val; omega

/-- What point t writes back is block t of the product of the argument arrays. -/
theorem flushed_eq (c : Dev nD) (t : Fin cfg0.N) :
    (dats m 0 c).flushed 2 t
      = ((cfg0.win 2).blk t).view.read (Elt Ideal) (Cert.Unpool.unpool (V m c main_arg1) (V m c main_arg0)) := by
  rw [Cert.KernelIdeal.Value.flushed2]
  unfold out0_2
  rw [View.canon_unit_zero origin]
  simp only [View.ld_unit_zero (S := S1x2048x256) origin, View.ld_unit_zero (S := S1x256x256) origin]
  obtain ⟨-, -, -, -, -, -, e0, e1, e2⟩ := block_index t
  funext j
  show k0_pay1 (F := Ideal) (iblk m c 0 t) (iblk m c 1 t) j
    = Cert.Unpool.unpool (V m c main_arg1) (V m c main_arg0) (((cfg0.win 2).blk t).view.emb j)
  refine stored_eq_unpool (V m c main_arg1) (V m c main_arg0) (iblk m c 0 t) (iblk m c 1 t) (⟨t.val, t.isLt⟩ : Fin 16)
    (assign_block m c t) (pooled_block m c t) j (((cfg0.win 2).blk t).view.emb j) ?_ ?_ ?_
  · show win0_2.index t (0 : Fin 3) * 1 + 1 * (j 0).val = t.val
    have hj : (j 0).val < 1 := (j 0).isLt
    omega
  · show win0_2.index t (1 : Fin 3) * 2048 + 1 * (j 1).val = (j 1).val
    omega
  · show win0_2.index t (2 : Fin 3) * 256 + 1 * (j 2).val = (j 2).val
    omega

/-- An index of the result array is in point t's block iff each coordinate is in the block's range on its axis. -/
theorem mem_block (t : Fin cfg0.N) (i : S16x2048x256.Idx) :
    i ∈ ((cfg0.win 2).blk t).view.set ↔ ∀ a : Fin 3, win0_2.index t a * S1x2048x256.size a ≤ (i a).val
      ∧ (i a).val < win0_2.index t a * S1x2048x256.size a + S1x2048x256.size a := by
  show i ∈ ((View.whole main_v0).slice (win0_2.rect t)).set ↔ _
  rw [View.set_slice_whole, Rect.mem_set_unit]
  exact Iff.rfl

/-- Entry (b, n, c) of the result lies in the block of point b. -/
theorem covered (i : S16x2048x256.Idx) :
    ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 256 := (i 2).isLt
  obtain ⟨-, -, -, -, -, -, e0, e1, e2⟩ := block_index ⟨(i 0).val, h0⟩
  have e0' : win0_2.index ⟨(i 0).val, h0⟩ (0 : Fin 3) = (i 0).val := e0
  refine ⟨⟨(i 0).val, h0⟩, flush0_2 _, ?_⟩
  rw [mem_block]
  intro a
  match a with
  | ⟨0, _⟩ =>
    show win0_2.index ⟨(i 0).val, h0⟩ (0 : Fin 3) * 1 ≤ (i 0).val ∧ (i 0).val < win0_2.index ⟨(i 0).val, h0⟩ (0 : Fin 3) * 1 + 1
    omega
  | ⟨1, _⟩ =>
    show win0_2.index ⟨(i 0).val, h0⟩ (1 : Fin 3) * 2048 ≤ (i 1).val ∧ (i 1).val < win0_2.index ⟨(i 0).val, h0⟩ (1 : Fin 3) * 2048 + 2048
    omega
  | ⟨2, _⟩ =>
    show win0_2.index ⟨(i 0).val, h0⟩ (2 : Fin 3) * 256 ≤ (i 2).val ∧ (i 2).val < win0_2.index ⟨(i 0).val, h0⟩ (2 : Fin 3) * 256 + 256
    omega

/-- The result array after the run is the product of the argument arrays as launched. -/
theorem final (c : Dev nD) :
    (dats m 0 c).arrAt 2 cfg0.N
      = Cert.Unpool.unpool (m ((c : Thread nD τ).loc main_arg1)) (m ((c : Thread nD τ).loc main_arg0)) :=
  (dats m 0 c).arrAt_eq_of_cover 2 (Cert.Unpool.unpool (V m c main_arg1) (V m c main_arg0))
    (fun t _ => flushed_eq m c t) covered

/-- Every weakly fair execution of the idealized kernel ends with the result array at the product of the arguments and
    the arguments unchanged. -/
theorem run : θ_run defs (onTc (τ := τ) (main (F := Ideal))) ⟨m, fun _ => 0, ρ⟩ fun r => ∀ c : Dev nD,
      r.2.mem ((c : Thread nD τ).loc main_v0)
        = Cert.Unpool.unpool (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelValue

end
-- ==== Proof.lean ====
/- DiffUnpool: out[b] = S[b] · x[b] for the 16 batches b, S[b] a 2048 × 256 assignment matrix and x[b] a 256 × 256 matrix
   of pooled features; the third argument (the adjacency) is not read by either program.

   The kernel runs a grid of 16 points, one per batch; at point b it loads S[b] and x[b], changes their float format,
   multiplies them into a zero accumulator and stores the 2048 × 256 product as batch b of the result. The reference is
   one batched product contracting S's last axis with x's middle axis. On the extended reals a change of float format
   is the identity and both products are the plain finite sum, so both programs end with
       out[b, n, c] = Σ_p S[b, n, p] · x[b, p, c]   (p over the 256 pooled nodes),
   the same sum over the same index set: nothing beyond re-indexing a finite sum is used, and the inputs' finiteness is
   never needed.

   Unpool.lean states that function; RefIsUnpool.lean shows the reference's product is it; BodyIsProduct.lean reads the
   value the kernel's body stores at an index (LibRowsByCols.lean: a rows-by-columns product into zero is the sum over
   the contracted coordinate); ArrayIsUnpool.lean shows that point b's stored block is batch b of the function, that
   the 16 blocks cover the result, and hence that the kernel's result array is the function. The idealization changed
   no operation of the kernel, so the preservation claim is trivial; the three frames are the generated runs. -/
import proofs.«132072_j3504693314190_1_alg».proof.Defs
import proofs.«132072_j3504693314190_1_alg».proof.Proof.Gen.Kernel
import proofs.«132072_j3504693314190_1_alg».proof.Proof.Gen.Kernel.Skeleton
import proofs.«132072_j3504693314190_1_alg».proof.Proof.Gen.Kernel.Launch
import proofs.«132072_j3504693314190_1_alg».proof.Proof.Gen.Kernel.Points
import proofs.«132072_j3504693314190_1_alg».proof.Proof.Gen.Kernel.Frame
import proofs.«132072_j3504693314190_1_alg».proof.Proof.Gen.KernelIdeal
import proofs.«132072_j3504693314190_1_alg».proof.Proof.Gen.KernelIdeal.Skeleton
import proofs.«132072_j3504693314190_1_alg».proof.Proof.Gen.KernelIdeal.Launch
import proofs.«132072_j3504693314190_1_alg».proof.Proof.Gen.KernelIdeal.Points
import proofs.«132072_j3504693314190_1_alg».proof.Proof.Gen.KernelIdeal.Frame
import proofs.«132072_j3504693314190_1_alg».proof.Proof.Gen.KernelIdeal.Value
import proofs.«132072_j3504693314190_1_alg».proof.Proof.Gen.ReferenceIdeal
import proofs.«132072_j3504693314190_1_alg».proof.Proof.Gen.ReferenceIdeal.Run
import proofs.«132072_j3504693314190_1_alg».proof.Proof.Gen.ReferenceIdeal.Read
import proofs.«132072_j3504693314190_1_alg».proof.Proof.Gen.Pre_finite_inputs
import proofs.«132072_j3504693314190_1_alg».proof.Proof.Unpool
import proofs.«132072_j3504693314190_1_alg».proof.Proof.RefIsUnpool
import proofs.«132072_j3504693314190_1_alg».proof.Proof.ArrayIsUnpool
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at Σ_p S[b, n, p] · x[b, p, c] of the
    kernel's arguments: the kernel by its blocks, the reference by its one batched product read at an index. -/
theorem algebraic : Cert.algebraic_KernelIdeal_ReferenceIdeal := by
  intro m ρ m' ρ' _ hagree
  refine ⟨fun c => Cert.Unpool.unpool
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.stage_eq_unpool, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
